-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x1 : Shape := ⟨2, ![800000, 1]⟩
abbrev S50000x1 : Shape := ⟨2, ![50000, 1]⟩
abbrev S256x256 : Shape := ⟨2, ![256, 256]⟩
abbrev S256 : Shape := ⟨1, ![256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256x256 .f32) (main_arg6 : FVec F S256 .f32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : FVec F S800000x1 .f32) (main_arg2 : FVec F S50000x1 .f32) (main_arg3 : FVec F S800000x1 .f32) (main_arg4 : FVec F S256x256 .f32) (main_arg5 : FVec F S256x256 .f32) (main_arg6 : FVec F S256 .f32) (main_arg7 : IVec S800000 32) (main_arg8 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S800000x1 .f32 := Host.absf main_arg3
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg4 main_arg5 main_arg6 main_v13 main_v16
-- ==== Kernel.lean ====
abbrev S50000x256 : Shape := ⟨2, ![50000, 256]⟩
abbrev S800000x1 : Shape := ⟨2, ![800000, 1]⟩
abbrev S50000x1 : Shape := ⟨2, ![50000, 1]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 52
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S800000x1, .f32⟩
  | .hbm, ⟨2, _⟩ => ⟨S50000x1, .f32⟩
  | .hbm, ⟨3, _⟩ => ⟨S800000x1, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x256, .f32⟩
  | .hbm, ⟨23, _⟩ => ⟨S50000x256, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S1x256, .f32⟩
  | .hbm, ⟨51, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x1, .f32⟩
  | .local _ .vmem, ⟨8, _⟩ => ⟨S2000x1, .f32⟩
  | .local _ .vmem, ⟨9, _⟩ => ⟨S2000x256, .f32⟩
  | .local _ .vmem, ⟨10, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000x1 : Shape := ⟨2, ![800000, 1]⟩
abbrev S50000x1 : Shape := ⟨2, ![50000, 1]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x256 : Shape := ⟨2, ![800000, 256]⟩
abbrev S1x256 : Shape := ⟨2, ![1, 256]⟩

abbrev nBuf : Space → Nat
  | .hbm => 58
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x1, .f32⟩
  | .hbm, ⟨2, _⟩ => ⟨S50000x1, .f32⟩
  | .hbm, ⟨3, _⟩ => ⟨S800000x1, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S50000x256, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x256, .f32⟩
  | .hbm, ⟨24, _⟩ => ⟨S50000x256, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S800000x256, .f32⟩
  | .hbm, ⟨35, _⟩ => ⟨S800000x256, .f32⟩
  | .hbm, ⟨36, _⟩ => ⟨S_, .f32⟩
  | .hbm, ⟨37, _⟩ => ⟨S50000x256, .f32⟩
  | .hbm, ⟨38, _⟩ => ⟨S800000x1, .i32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S_, .f32⟩
  | .hbm, ⟨52, _⟩ => ⟨S50000, .f32⟩
  | .hbm, ⟨53, _⟩ => ⟨S50000, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.Spec.lean ====
/-
  The dense part of one graph-convolution layer, entry by entry, on the extended reals.

  With `x` the node features, `agg` the edge messages summed into their destination rows (both [n, 256]), `ws` and `w`
  the two weight matrices [256, 256], `b` the bias and `d` a scale per row, entry `(r, j)` of the layer's output is

      (∑ₖ x[r,k] · ws[k,j]) + ((∑ₖ agg[r,k] · w[k,j]) + b[j]) · d[r].

  The kernel computes this expression on blocks of 2000 rows and the reference on all 50000 rows at once, with the two
  sums, the bias and the scale in the same places: no law of the extended reals is needed beyond reading each
  operation at an index, and the inputs' finiteness is never used.
-/
import Idealize.ShloMosaic.PureOps.Ideal
import Idealize.ShloMosaic.Lib.ValueIdx

noncomputable section

namespace Cert.GcnLayer

open Idealize.ShloMosaic Idealize.ShloMosaic.ValueIdx

/-- Entry `(r, j)` of the product of an `[n, 256]` array with a `[256, 256]` array: the sum over the shared axis. -/
def rowDot {n : Nat} (x : (⟨2, ![n, 256]⟩ : Shape).Idx → EReal) (w : (⟨2, ![256, 256]⟩ : Shape).Idx → EReal)
    (r : Fin n) (j : Fin 256) : EReal :=
  ∑ k : Fin 256, x (ix2 r k) * w (ix2 k j)

/-- Entry `(r, j)` of the layer over `n` rows: the self product plus the scaled, biased neighbour product. -/
def entry {n : Nat} (x agg : (⟨2, ![n, 256]⟩ : Shape).Idx → EReal) (ws w : (⟨2, ![256, 256]⟩ : Shape).Idx → EReal)
    (b : Fin 256 → EReal) (d : Fin n → EReal) (r : Fin n) (j : Fin 256) : EReal :=
  rowDot x ws r j + (rowDot agg w r j + b j) * d r

/-- The layer's whole output over 50000 rows. -/
def layer (x agg : (⟨2, ![50000, 256]⟩ : Shape).Idx → EReal) (ws w : (⟨2, ![256, 256]⟩ : Shape).Idx → EReal)
    (b : Fin 256 → EReal) (d : Fin 50000 → EReal) : (⟨2, ![50000, 256]⟩ : Shape).Idx → EReal :=
  fun i => entry x agg ws w b d (i 0) (i 1)

end Cert.GcnLayer

end
-- ==== Proof.BlockValue.lean ====
/-
  What the kernel's body leaves in one output block, entry by entry.

  The body loads a 2000-row block of the features `x` and of the aggregated messages `a`, the two weight matrices
  `ws` and `w`, the bias as one row `b` [1, 256] and the 2000 rows' scales as one column `d` [2000, 1], and stores

      x·ws + (a·w + b) · d,

  the products on the matrix unit into a zero accumulator, the row and the column broadcast over the block. The
  changes of float format around the two products are the identity on extended reals. So entry `(p, q)` of the stored
  block is the layer's entry of row `p` of the two blocks, with bias `b[0, q]` and scale `d[p, 0]`.
-/
import proofs.«127389_j32435593019562_1_alg».proof.Proof.Gen.KernelIdeal.Skeleton
import proofs.«127389_j32435593019562_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx

/-! ## The matrix unit's product at an entry -/

/-- The left operand is read at the entry's row … -/
theorem lhs_blk_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and at the contracted coordinate; -/
theorem lhs_blk_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- the right operand at the contracted coordinate … -/
theorem rhs_blk_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and at the entry's column. -/
theorem rhs_blk_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block's product into a zero accumulator, at entry `(p, q)`, is the sum over the shared axis. -/
theorem blockDot {φ₁ φ₂ : FTy} (x : FVec Ideal S2000x256 φ₁) (w : FVec Ideal S256x256 φ₂) (p : Fin 2000) (q : Fin 256) :
    matmul (F := Ideal) dot_S2000x256_S256x256_S2000x256_1_0_0_1_n_n none x w (constant S2000x256 .f32 0x00000000#32) (ix2 p q)
      = GcnLayer.rowDot x w p q := by
  show FloatOps.matmul dot_S2000x256_S256x256_S2000x256_1_0_0_1_n_n none x w (constant S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  unfold GcnLayer.rowDot
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]

/-! ## The column of scales broadcast over the block -/

/-- A `[2000, 1]` column broadcast to `[2000, 256]` reads, at `(p, q)`, the column's row `p`. -/
theorem colBroadcast (v : FVec Ideal S2000x1 .f32) (p : Fin 2000) (q : Fin 256) :
    broadcastTo S2000x256 v broadcasts_S2000x1_S2000x256 (ix2 p q) = v (ix2 p (0 : Fin 1)) := by
  refine broadcastTo_apply v broadcasts_S2000x1_S2000x256 (ix2 p q) (ix2 p (0 : Fin 1)) fun ax => ?_
  match ax with
  | ⟨0, _⟩ =>
    show p.val = if (2000 : Nat) = 1 then 0 else p.val
    rw [if_neg (by decide)]
  | ⟨1, _⟩ => rfl

/-! ## The stored block -/

/-- ENTRY `(p, q)` OF THE STORED BLOCK: the layer's entry of the loaded blocks' row `p`, the bias read from its one row
    and the scale from its one column. -/
theorem pay_apply (x a : Vec Ideal S2000x256 .f32) (ws w : Vec Ideal S256x256 .f32) (b : Vec Ideal S1x256 .f32)
    (d : Vec Ideal S2000x1 .f32) (p : Fin 2000) (q : Fin 256) :
    k0_pay1 (F := Ideal) x a ws w b d (ix2 p q)
      = GcnLayer.entry x a ws w (fun j => b (ix2 (0 : Fin 1) j)) (fun r => d (ix2 r (0 : Fin 1))) p q := by
  unfold k0_pay1 GcnLayer.entry
  simp only [shapeCast_self]
  rw [addf_apply, mulf_apply, addf_apply, blockDot, blockDot, colBroadcast, broadcastTo_1b_ab_apply]
  rfl

end Cert.KernelIdeal.BlockValue

end
-- ==== Proof.ArrayValue.lean ====
/-
  The kernel's output array after the run, as ONE function of the arrays the region finds.

  The grid has 25 points; point `t` stages rows `2000·t … 2000·t + 1999` of the features, of the aggregated messages
  and of the column of scales, and the whole of the two weight matrices and of the bias row, and writes rows
  `2000·t … 2000·t + 1999` of the output. An entry of a block depends on its own row of the row arrays only, so the
  block point `t` writes is the restriction of the whole layer to those rows; the 25 blocks tile the 50000 rows, so
  the array ends holding the whole layer.
-/
import proofs.«127389_j32435593019562_1_alg».proof.Proof.Gen.KernelIdeal.Value
import proofs.«127389_j32435593019562_1_alg».proof.Proof.BlockValue
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The arrays the region finds, at their literal types

The two arrays the host computes from the edges (the summed messages and the column of scales) are named through the
windows that stage them; what they hold is read in another module. -/

/-- The node features. -/
abbrev feat (c : Dev nD) : Vec Ideal S50000x256 .f32 := V m c main_arg0
/-- The messages summed into their destination rows. -/
abbrev aggr (c : Dev nD) : Vec Ideal S50000x256 .f32 := V m c (Pipeline.arrRef spec0 1)
/-- The self weights. -/
abbrev wSelf (c : Dev nD) : Vec Ideal S256x256 .f32 := V m c main_arg4
/-- The neighbour weights. -/
abbrev wNbr (c : Dev nD) : Vec Ideal S256x256 .f32 := V m c main_arg5
/-- The bias as one row. -/
abbrev biasRow (c : Dev nD) : Vec Ideal S1x256 .f32 := V m c main_v31
/-- The rows' scales as one column. -/
abbrev scaleCol (c : Dev nD) : Vec Ideal S50000x1 .f32 := V m c (Pipeline.arrRef spec0 5)

/-- What the output array ends holding: the layer of those arrays. -/
def result (c : Dev nD) : Vec Ideal S50000x256 .f32 :=
  GcnLayer.layer (feat m c) (aggr m c) (wSelf m c) (wNbr m c)
    (fun j => biasRow m c (ix2 (0 : Fin 1) j)) (fun r => scaleCol m c (ix2 r (0 : Fin 1)))

/-- Its entry `(r, q)`. -/
theorem result_apply (c : Dev nD) (r : Fin 50000) (q : Fin 256) :
    result m c (ix2 r q)
      = GcnLayer.entry (feat m c) (aggr m c) (wSelf m c) (wNbr m c)
          (fun j => biasRow m c (ix2 (0 : Fin 1) j)) (fun r => scaleCol m c (ix2 r (0 : Fin 1))) r q := rfl

/-! ## The index maps over the grid -/

/-- Point `t` stages block row `t` of the three row arrays and of the output, block `(0, 0)` of the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The staged blocks, read off the arrays -/

/-- Row `p` of the features' block at point `t` is row `2000·t + p` of the features. -/
theorem featBlk_apply (c : Dev nD) (t : Fin cfg0.N) (p : Fin 2000) (k : Fin 256) (r : Fin 50000)
    (hr : r.val = 2000 * t.val + p.val) : iblk m c 0 t (ix2 p k) = feat m c (ix2 r k) := by
  obtain ⟨e0, e1, -⟩ := idx_facts t
  have he : ((cfg0.win 0).blk t).view.emb (ix2 p k) = ix2 r k := funext fun a => Fin.ext (by
    match a with
    | ⟨0, _⟩ => show win0_0.index t (0 : Fin 2) * 2000 + 1 * p.val = r.val; omega
    | ⟨1, _⟩ => show win0_0.index t (1 : Fin 2) * 256 + 1 * k.val = k.val; omega)
  show V m c main_arg0 (((cfg0.win 0).blk t).view.emb (ix2 p k)) = V m c main_arg0 (ix2 r k)
  rw [he]

/-- Row `p` of the messages' block at point `t` is row `2000·t + p` of the messages. -/
theorem aggrBlk_apply (c : Dev nD) (t : Fin cfg0.N) (p : Fin 2000) (k : Fin 256) (r : Fin 50000)
    (hr : r.val = 2000 * t.val + p.val) : iblk m c 1 t (ix2 p k) = aggr m c (ix2 r k) := by
  obtain ⟨-, -, e0, e1, -⟩ := idx_facts t
  have he : ((cfg0.win 1).blk t).view.emb (ix2 p k) = ix2 r k := funext fun a => Fin.ext (by
    match a with
    | ⟨0, _⟩ => show win0_1.index t (0 : Fin 2) * 2000 + 1 * p.val = r.val; omega
    | ⟨1, _⟩ => show win0_1.index t (1 : Fin 2) * 256 + 1 * k.val = k.val; omega)
  unfold iblk
  rw [View.read_apply, he, cast_eq]

/-- Row `p` of the scales' block at point `t` is row `2000·t + p` of the column. -/
theorem scaleBlk_apply (c : Dev nD) (t : Fin cfg0.N) (p : Fin 2000) (r : Fin 50000)
    (hr : r.val = 2000 * t.val + p.val) : iblk m c 5 t (ix2 p (0 : Fin 1)) = scaleCol m c (ix2 r (0 : Fin 1)) := by
  obtain ⟨-, -, -, -, -, -, -, -, -, -, e0, e1, -⟩ := idx_facts t
  have he : ((cfg0.win 5).blk t).view.emb (ix2 p (0 : Fin 1)) = ix2 r (0 : Fin 1) := funext fun a => Fin.ext (by
    match a with
    | ⟨0, _⟩ => show win0_5.index t (0 : Fin 2) * 2000 + 1 * p.val = r.val; omega
    | ⟨1, _⟩ => show win0_5.index t (1 : Fin 2) * 1 + 1 * 0 = 0; omega)
  unfold iblk
  rw [View.read_apply, he, cast_eq]

/-- The self weights are staged whole at every point. -/
theorem wSelfBlk (c : Dev nD) (t : Fin cfg0.N) : iblk m c 2 t = wSelf m c := by
  obtain ⟨-, -, -, -, e0, e1, -⟩ := idx_facts t
  funext y
  have he : ((cfg0.win 2).blk t).view.emb y = y := funext fun a => Fin.ext (by
    match a with
    | ⟨0, _⟩ => show win0_2.index t (0 : Fin 2) * 256 + 1 * (y 0).val = (y 0).val; omega
    | ⟨1, _⟩ => show win0_2.index t (1 : Fin 2) * 256 + 1 * (y 1).val = (y 1).val; omega)
  show V m c main_arg4 (((cfg0.win 2).blk t).view.emb y) = V m c main_arg4 y
  rw [he]

/-- The neighbour weights are staged whole at every point. -/
theorem wNbrBlk (c : Dev nD) (t : Fin cfg0.N) : iblk m c 3 t = wNbr m c := by
  obtain ⟨-, -, -, -, -, -, e0, e1, -⟩ := idx_facts t
  funext y
  have he : ((cfg0.win 3).blk t).view.emb y = y := funext fun a => Fin.ext (by
    match a with
    | ⟨0, _⟩ => show win0_3.index t (0 : Fin 2) * 256 + 1 * (y 0).val = (y 0).val; omega
    | ⟨1, _⟩ => show win0_3.index t (1 : Fin 2) * 256 + 1 * (y 1).val = (y 1).val; omega)
  show V m c main_arg5 (((cfg0.win 3).blk t).view.emb y) = V m c main_arg5 y
  rw [he]

/-- The bias row is staged whole at every point. -/
theorem biasBlk (c : Dev nD) (t : Fin cfg0.N) : iblk m c 4 t = biasRow m c := by
  obtain ⟨-, -, -, -, -, -, -, -, e0, e1, -⟩ := idx_facts t
  funext y
  have he : ((cfg0.win 4).blk t).view.emb y = y := funext fun a => Fin.ext (by
    match a with
    | ⟨0, _⟩ => show win0_4.index t (0 : Fin 2) * 1 + 1 * (y 0).val = (y 0).val; omega
    | ⟨1, _⟩ => show win0_4.index t (1 : Fin 2) * 256 + 1 * (y 1).val = (y 1).val; omega)
  show V m c main_v31 (((cfg0.win 4).blk t).view.emb y) = V m c main_v31 y
  rw [he]

/-! ## What a point writes back -/

/-- WHAT POINT `t` WRITES BACK is block `t` of the layer of the arrays the region finds. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin]
  simp only [View.ld_unit_zero (S := S2000x256) origin, View.ld_unit_zero (S := S256x256) origin,
    View.ld_unit_zero (S := S1x256) origin, View.ld_unit_zero (S := S2000x1) origin]
  funext y
  obtain ⟨p, q, rfl⟩ : ∃ (p : Fin 2000) (q : Fin 256), y = ix2 p q := ⟨y 0, y 1, eq_ix2 y⟩
  have hN : cfg0.N = 25 := N_0
  have ht : t.val < 25 := hN ▸ t.isLt
  have hp : 2000 * t.val + p.val < 50000 := by have := p.isLt; omega
  obtain ⟨-, -, -, -, -, -, -, -, -, -, -, -, e0, e1⟩ := idx_facts t
  have he : ((cfg0.win 6).blk t).view.emb (ix2 p q) = ix2 (⟨2000 * t.val + p.val, hp⟩ : Fin 50000) q :=
    funext fun a => Fin.ext (by
      match a with
      | ⟨0, _⟩ => show win0_6.index t (0 : Fin 2) * 2000 + 1 * p.val = 2000 * t.val + p.val; omega
      | ⟨1, _⟩ => show win0_6.index t (1 : Fin 2) * 256 + 1 * q.val = q.val; omega)
  show k0_pay1 (iblk m c 0 t) (iblk m c 1 t) (iblk m c 2 t) (iblk m c 3 t) (iblk m c 4 t) (iblk m c 5 t) (ix2 p q)
    = result m c (((cfg0.win 6).blk t).view.emb (ix2 p q))
  rw [he, result_apply]
  refine (BlockValue.pay_apply (iblk m c 0 t) (iblk m c 1 t) (iblk m c 2 t) (iblk m c 3 t) (iblk m c 4 t) (iblk m c 5 t) p q).trans ?_
  rw [wSelfBlk, wNbrBlk, biasBlk]
  have hr : (⟨2000 * t.val + p.val, hp⟩ : Fin 50000).val = 2000 * t.val + p.val := rfl
  unfold GcnLayer.entry GcnLayer.rowDot
  simp only [featBlk_apply m c t p _ _ hr, aggrBlk_apply m c t p _ _ hr, scaleBlk_apply m c t p _ hr]

/-! ## The blocks tile the array -/

/-- An index of the array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v32).slice (win0_6.rect t)).set ↔ _
  rw [View.set_slice_whole, Rect.mem_set_unit]
  exact Iff.rfl

/-- Row `r` of the output is written by point `r / 2000`. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, -, -, -, -, -, -, -, e0, e1⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    rw [e1]; omega

/-! ## The array, and the run -/

/-- THE OUTPUT ARRAY after the run is the layer of the arrays the region finds. -/
theorem final (c : Dev nD) : (dats m 0 c).arrAt 6 cfg0.N = result m c :=
  (dats m 0 c).arrAt_eq_of_cover 6 (result m c) (fun t _ => flushed_eq m c t) cover

end Cert.KernelIdeal.ArrayValue

end
-- ==== Proof.HostValue.lean ====
/-
  The arrays the kernel's program computes on the host before the launch, named by the reference's own stages.

  Before the launch the kernel's program computes, by the very host operations the reference uses, the messages summed
  into their destination rows (the features scaled by the inverse square root of the out-degree, gathered along the
  edges' sources, weighted by the edge weights, scatter-added at the edges' destinations) and the inverse square root of
  the in-degree; it lays the latter out as a column and the bias as a row. So the messages ARE the reference's
  stage for them, entry `(r, 0)` of the column is the reference's scale of row `r`, and entry `(0, j)` of the row is
  the bias at `j`.
-/
import proofs.«127389_j32435593019562_1_alg».proof.Proof.Gen.KernelIdeal.Frame
import proofs.«127389_j32435593019562_1_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The summed messages the region finds are the reference's stage for them, of the same arguments. -/
theorem aggr_eq (c : Dev nD) :
    (V m c main_v22 : S50000x256.Idx → EReal)
      = Cert.ReferenceIdeal.Read.val_main_v23 (F := Ideal) (m ((c : Thread nD τ).loc main_arg0)) (m ((c : Thread nD τ).loc main_arg1))
          (m ((c : Thread nD τ).loc main_arg7)) (m ((c : Thread nD τ).loc main_arg8)) := by
  dsimp only [Gen.V, Gen.hostOps0]
  after_results_simp
  rfl

/-- The column of scales the region finds is the in-degree scale laid out as `[50000, 1]`. -/
theorem scaleCol_eq (c : Dev nD) :
    (V m c main_v30 : S50000x1.Idx → EReal)
      = broadcastInDim S50000x1 ![0] bcast_S50000_S50000x1_0
          (Cert.ReferenceIdeal.Read.val_main_v34 (F := Ideal) (m ((c : Thread nD τ).loc main_arg8))) := by
  dsimp only [Gen.V, Gen.hostOps0]
  after_results_simp
  rfl

/-- Entry `(r, 0)` of the column is the reference's scale of row `r`. -/
theorem scaleCol_apply (c : Dev nD) (r : Fin 50000) :
    (V m c main_v30 : S50000x1.Idx → EReal) (ix2 r (0 : Fin 1))
      = Cert.ReferenceIdeal.Read.val_main_v34 (F := Ideal) (m ((c : Thread nD τ).loc main_arg8)) (ix1 r) := by
  rw [scaleCol_eq]
  generalize Cert.ReferenceIdeal.Read.val_main_v34 (F := Ideal) (m ((c : Thread nD τ).loc main_arg8)) = y
  exact broadcastInDim_apply _ bcast_S50000_S50000x1_0 y (ix2 r (0 : Fin 1)) (ix1 r) (fun a => match a with
    | ⟨0, _⟩ => by show r.val = if (50000 : Nat) = 1 then 0 else r.val; rw [if_neg (by decide)])

/-- The bias row the region finds is the bias recast as `[1, 256]`. -/
theorem biasRow_eq (c : Dev nD) :
    (V m c main_v31 : S1x256.Idx → EReal)
      = shapeCast S1x256 (m ((c : Thread nD τ).loc main_arg6) : S256.Idx → EReal) shapeCasts_S256_S1x256 := by
  dsimp only [Gen.V, Gen.hostOps0]
  after_results_simp
  rfl

/-- Entry `(0, j)` of the row is the bias at `j`. -/
theorem biasRow_apply (c : Dev nD) (j : Fin 256) :
    (V m c main_v31 : S1x256.Idx → EReal) (ix2 (0 : Fin 1) j) = (m ((c : Thread nD τ).loc main_arg6) : S256.Idx → EReal) (ix1 j) := by
  rw [biasRow_eq]
  exact shapeCast_a_1a_apply _ shapeCasts_S256_S1x256 (0 : Fin 1) j

/-! ## The same two arrays, named through the windows that stage them -/

/-- The contents of a buffer do not depend on how its reference is spelt. -/
theorem V_at (c : Dev nD) {b b' : Ref sig .tc} (h : b = b') : HEq (V m c b) (V m c b') := by
  subst h; exact HEq.rfl

/-- Window 1 stages the summed messages. -/
theorem aggrWin_eq (c : Dev nD) :
    (V m c (Pipeline.arrRef spec0 1) : S50000x256.Idx → EReal)
      = Cert.ReferenceIdeal.Read.val_main_v23 (F := Ideal) (m ((c : Thread nD τ).loc main_arg0)) (m ((c : Thread nD τ).loc main_arg1))
          (m ((c : Thread nD τ).loc main_arg7)) (m ((c : Thread nD τ).loc main_arg8)) :=
  (eq_of_heq (V_at m c (rfl : Pipeline.arrRef spec0 1 = main_v22))).trans (aggr_eq m c)

/-- Window 5 stages the column of scales. -/
theorem scaleWin_apply (c : Dev nD) (r : Fin 50000) :
    (V m c (Pipeline.arrRef spec0 5) : S50000x1.Idx → EReal) (ix2 r (0 : Fin 1))
      = Cert.ReferenceIdeal.Read.val_main_v34 (F := Ideal) (m ((c : Thread nD τ).loc main_arg8)) (ix1 r) :=
  (congrFun (eq_of_heq (V_at m c (rfl : Pipeline.arrRef spec0 5 = main_v30))) (ix2 r (0 : Fin 1))).trans (scaleCol_apply m c r)

end Cert.KernelIdeal.HostValue

end
-- ==== Proof.RefValue.lean ====
/-
  The reference's result, as the layer of its own intermediate arrays.

  The reference multiplies the features by the self weights, sums the weighted messages into their destination rows
  (`agg`), multiplies that by the neighbour weights, adds the bias along each row, scales row `r` by the inverse square
  root of its in-degree (`d`), and adds the two: entry `(r, j)` is

      (∑ₖ x[r,k] · ws[k,j]) + ((∑ₖ agg[r,k] · w[k,j]) + b[j]) · d[r],

  each operation read at an index. The messages `agg` and the scales `d` are kept as the stages that compute them:
  the kernel's program computes them by the same host operations.
-/
import proofs.«127389_j32435593019562_1_alg».proof.Proof.Gen.ReferenceIdeal.Read
import proofs.«127389_j32435593019562_1_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The product stages read row `r` of the left operand along `k` … -/
theorem lidx_v1 (r : Fin 50000) (j k : Fin 256) : lidx_main_v1 (ix2 r j) k = ix2 r k :=
  funext fun a => Fin.ext (by match a with | ⟨0, _⟩ => rfl | ⟨1, _⟩ => rfl)
/-- … and column `j` of the right operand along `k`. -/
theorem ridx_v1 (r : Fin 50000) (j k : Fin 256) : ridx_main_v1 (ix2 r j) k = ix2 k j :=
  funext fun a => Fin.ext (by match a with | ⟨0, _⟩ => rfl | ⟨1, _⟩ => rfl)
theorem lidx_v24 (r : Fin 50000) (j k : Fin 256) : lidx_main_v24 (ix2 r j) k = ix2 r k :=
  funext fun a => Fin.ext (by match a with | ⟨0, _⟩ => rfl | ⟨1, _⟩ => rfl)
theorem ridx_v24 (r : Fin 50000) (j k : Fin 256) : ridx_main_v24 (ix2 r j) k = ix2 k j :=
  funext fun a => Fin.ext (by match a with | ⟨0, _⟩ => rfl | ⟨1, _⟩ => rfl)
/-- The bias is read at the entry's column … -/
theorem idx_bias (r : Fin 50000) (j : Fin 256) : idx_main_v25 (idx_main_v26 (ix2 r j)) = ix1 j :=
  funext fun a => Fin.ext (by match a with | ⟨0, _⟩ => rfl)
/-- … and the scale at the entry's row. -/
theorem idx_scale (r : Fin 50000) (j : Fin 256) : idx_main_v35 (idx_main_v36 (ix2 r j)) = ix1 r :=
  funext fun a => Fin.ext (by match a with | ⟨0, _⟩ => rfl)

/-- The layer as a function of the seven arguments both programs read: the messages and the scales computed from the
    features, the edge weights and the two index arrays by the reference's own stages. -/
def layerOf (x0 : (⟨S50000x256, .f32⟩ : BufTy).Contents (Elt Ideal)) (x1 : (⟨S800000x1, .f32⟩ : BufTy).Contents (Elt Ideal))
    (x4 x5 : (⟨S256x256, .f32⟩ : BufTy).Contents (Elt Ideal)) (x6 : (⟨S256, .f32⟩ : BufTy).Contents (Elt Ideal))
    (x7 x8 : (⟨S800000, .i32⟩ : BufTy).Contents (Elt Ideal)) : (⟨S50000x256, .f32⟩ : BufTy).Contents (Elt Ideal) :=
  GcnLayer.layer x0 (val_main_v23 (F := Ideal) x0 x1 x7 x8) x4 x5 (fun j => x6 (ix1 j))
    (fun r => val_main_v34 (F := Ideal) x8 (ix1 r))

/-- THE REFERENCE'S RESULT is the layer of the features, its summed messages, the weights, the bias and its scales. -/
theorem result_eq (x0 : (⟨S50000x256, .f32⟩ : BufTy).Contents (Elt Ideal)) (x1 : (⟨S800000x1, .f32⟩ : BufTy).Contents (Elt Ideal))
    (x4 x5 : (⟨S256x256, .f32⟩ : BufTy).Contents (Elt Ideal)) (x6 : (⟨S256, .f32⟩ : BufTy).Contents (Elt Ideal))
    (x7 x8 : (⟨S800000, .i32⟩ : BufTy).Contents (Elt Ideal)) :
    val_main_v38 (F := Ideal) x0 x1 x4 x5 x6 x7 x8
      = layerOf x0 x1 x4 x5 x6 x7 x8 := by
  unfold layerOf
  funext i
  obtain ⟨r, j, rfl⟩ : ∃ (r : Fin 50000) (j : Fin 256), i = ix2 r j := ⟨i 0, i 1, eq_ix2 i⟩
  rw [val_main_v38_apply, val_main_v1_apply, val_main_v37_apply, val_main_v27_apply, val_main_v24_apply,
    val_main_v26_apply, val_main_v25_apply, val_main_v36_apply, val_main_v35_apply]
  simp only [lidx_v1, ridx_v1, lidx_v24, ridx_v24, idx_bias, idx_scale, Ideal.addf_def, Ideal.mulf_def]
  rfl

end Cert.ReferenceIdeal.RefValue

end
-- ==== Proof.KernelValue.lean ====
/-
  The kernel's run, with its output named as the layer of the ARGUMENT arrays.

  The array the output ends holding is the layer of the arrays the region finds. Of those, the features and the two
  weight matrices are arguments no host operation writes; the summed messages, the column of scales and the bias row are
  the host's, read in the reference's stages. So the output is the same function of the seven arguments the reference's
  result is.
-/
import proofs.«127389_j32435593019562_1_alg».proof.Proof.ArrayValue
import proofs.«127389_j32435593019562_1_alg».proof.Proof.HostValue
import proofs.«127389_j32435593019562_1_alg».proof.Proof.RefValue

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer of the arrays the region finds is the layer of the arguments as launched. -/
theorem result_eq (c : Dev nD) :
    ArrayValue.result m c
      = Cert.ReferenceIdeal.RefValue.layerOf (m ((c : Thread nD τ).loc main_arg0)) (m ((c : Thread nD τ).loc main_arg1))
          (m ((c : Thread nD τ).loc main_arg4)) (m ((c : Thread nD τ).loc main_arg5)) (m ((c : Thread nD τ).loc main_arg6))
          (m ((c : Thread nD τ).loc main_arg7)) (m ((c : Thread nD τ).loc main_arg8)) := by
  unfold ArrayValue.result Cert.ReferenceIdeal.RefValue.layerOf
  have hb : (fun j : Fin 256 => ArrayValue.biasRow m c (ix2 (0 : Fin 1) j))
      = fun j : Fin 256 => (m ((c : Thread nD τ).loc main_arg6) : S256.Idx → EReal) (ix1 j) :=
    funext fun j => HostValue.biasRow_apply m c j
  have hd : (fun r : Fin 50000 => ArrayValue.scaleCol m c (ix2 r (0 : Fin 1)))
      = fun r : Fin 50000 => Cert.ReferenceIdeal.Read.val_main_v34 (F := Ideal) (m ((c : Thread nD τ).loc main_arg8)) (ix1 r) :=
    funext fun r => HostValue.scaleWin_apply m c r
  have hx : ArrayValue.feat m c = m ((c : Thread nD τ).loc main_arg0) := V_main_arg0 m c
  have hws : ArrayValue.wSelf m c = m ((c : Thread nD τ).loc main_arg4) := V_main_arg4 m c
  have hw : ArrayValue.wNbr m c = m ((c : Thread nD τ).loc main_arg5) := V_main_arg5 m c
  have ha : ArrayValue.aggr m c = _ := HostValue.aggrWin_eq m c
  rw [hb, hd, hx, hws, hw, ha]

/-- THE KERNEL'S RUN: every weakly fair execution ends with the output at the layer of the arguments, the edge
    weights (the second result) and every argument as launched. -/
theorem run : θ_run defs (onTc (τ := τ) (main (F := Ideal))) ⟨m, fun _ => 0, ρ⟩ fun r => ∀ c : Dev nD,
      r.2.mem ((c : Thread nD τ).loc main_v32)
        = Cert.ReferenceIdeal.RefValue.layerOf (m ((c : Thread nD τ).loc main_arg0)) (m ((c : Thread nD τ).loc main_arg1))
            (m ((c : Thread nD τ).loc main_arg4)) (m ((c : Thread nD τ).loc main_arg5)) (m ((c : Thread nD τ).loc main_arg6))
            (m ((c : Thread nD τ).loc main_arg7)) (m ((c : Thread nD τ).loc main_arg8))
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1.trans (ArrayValue.final m c)).trans (result_eq m c), (h c).2.2.1, (h c).2⟩)
    (Value.run_blocks m ρ)

end Cert.KernelIdeal.KernelValue

end
-- ==== Proof.lean ====
/- One graph-convolution layer, the kernel's program against its reference, equal over the extended reals.

   Both programs compute, for 50000 nodes with 256 features and 800000 edges, out = x·ws + (agg·w + b)·d, where `agg` sums
   along each edge the source's features (scaled by the inverse square root of the source's out-degree, weighted by the
   edge weight) into the destination's row and `d` is the inverse square root of the destination's in-degree. The
   degrees, the gather along the edges and the two scatter-adds are the same host operations in both programs; the
   kernel's program then runs the two products, the bias and the scale on blocks of 2000 rows in one launch over 25
   grid points, the reference on the whole arrays. Entry by entry the two results are one expression: the
   sums, the bias and the scale sit in the same places, so nothing is used of the extended reals beyond reading each
   operation at an index, and the inputs' finiteness is not needed.

   Spec: the layer's entry. BlockValue: the body's stored block at an entry. ArrayValue: the 25 blocks are the layer
   of the arrays the region finds. HostValue: those arrays in the reference's stages. KernelValue: the kernel's run.
   RefValue: the reference's result is the same layer. The second result, the edge weights, is an argument both
   programs return untouched. -/
import proofs.«127389_j32435593019562_1_alg».proof.Defs
import proofs.«127389_j32435593019562_1_alg».proof.Proof.Gen.Kernel
import proofs.«127389_j32435593019562_1_alg».proof.Proof.Gen.Kernel.Skeleton
import proofs.«127389_j32435593019562_1_alg».proof.Proof.Gen.Kernel.Launch
import proofs.«127389_j32435593019562_1_alg».proof.Proof.Gen.Kernel.Points
import proofs.«127389_j32435593019562_1_alg».proof.Proof.Gen.Kernel.Frame
import proofs.«127389_j32435593019562_1_alg».proof.Proof.Gen.KernelIdeal
import proofs.«127389_j32435593019562_1_alg».proof.Proof.Gen.KernelIdeal.Skeleton
import proofs.«127389_j32435593019562_1_alg».proof.Proof.Gen.KernelIdeal.Launch
import proofs.«127389_j32435593019562_1_alg».proof.Proof.Gen.KernelIdeal.Points
import proofs.«127389_j32435593019562_1_alg».proof.Proof.Gen.KernelIdeal.Frame
import proofs.«127389_j32435593019562_1_alg».proof.Proof.Gen.ReferenceIdeal
import proofs.«127389_j32435593019562_1_alg».proof.Proof.Gen.Pre_finite_inputs
import proofs.«127389_j32435593019562_1_alg».proof.Proof.Gen.KernelIdeal.Value
import proofs.«127389_j32435593019562_1_alg».proof.Proof.Gen.ReferenceIdeal.Run
import proofs.«127389_j32435593019562_1_alg».proof.Proof.Gen.ReferenceIdeal.Read
import proofs.«127389_j32435593019562_1_alg».proof.Proof.KernelValue
import proofs.«127389_j32435593019562_1_alg».proof.Proof.RefValue
import Idealize.ShloMosaic.Adequacy
import Idealize.ShloMosaic.Init

noncomputable section

namespace Cert.Proof

open Idealize.ShloMosaic Idealize.SL.Sem Cert.Kernel

/-- The word-level kernel runs, faults nowhere and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the layer of those arguments as the first result
    and the edge weights as the second. -/
theorem algebraic : Cert.algebraic_KernelIdeal_ReferenceIdeal := by
  intro m ρ m' ρ' _ hagree
  refine ⟨fun c => Cert.ReferenceIdeal.RefValue.layerOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => m ((c.tc : Thread Cert.KernelIdeal.nD Cert.KernelIdeal.τ).loc Cert.KernelIdeal.main_arg1),
    Cert.KernelIdeal.KernelValue.run m ρ, ?_⟩
  refine (θ_run Cert.ReferenceIdeal.defs _ _).mono
    (fun _ h c => ⟨(h c).1.trans ?_, (h c).2.1.trans (hagree c).2.1, (h c).2.2⟩)
    (Cert.ReferenceIdeal.Value.run (F := Ideal) m' ρ')
  obtain ⟨h0, h1, -, -, h4, h5, h6, h7, h8⟩ := hagree c
  rw [Cert.ReferenceIdeal.Read.val_main_v38_eq, Cert.ReferenceIdeal.RefValue.result_eq, h0, h1, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
